-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x37x37x512 : Shape := ⟨4, ![64, 37, 37, 512]⟩
abbrev S_ : Shape := ⟨0, ![]⟩

class Facts : Prop where
  bcast_S_S64x37x37x512 : S_.BroadcastsInDim S64x37x37x512 (![] : Fin 0 → Fin S64x37x37x512.rank)
  reducesTo_S64x37x37x512_S_d0_1_2_3 : S64x37x37x512.ReducesTo [0, 1, 2, 3] S_
  h_S_ : 0 < S_.numel

variable [Facts]

def fn {F : FTy → Type} [FloatOps F] (main_arg0 : FVec F S64x37x37x512 .f32) : IVec S_ 1 :=
  let main_v0 : FVec F S64x37x37x512 .f32 := Host.absf main_arg0
  let main_cst : FVec F S_ .f32 := constant S_ .f32 0x7F800000#32
  let main_v1 : FVec F S64x37x37x512 .f32 := broadcastInDim S64x37x37x512 ![] bcast_S_S64x37x37x512 main_cst
  let main_v2 : IVec S64x37x37x512 1 := cmpf .olt main_v0 main_v1
  let main_c : IVec S_ 1 := constantI S_ 1 1#1
  let main_v3 : IVec S_ 1 := (fun x v => Host.reduce IntOp.andi x v reducesTo_S64x37x37x512_S_d0_1_2_3 h_S_) main_v2 main_c
  main_v3
-- ==== Kernel.lean ====
abbrev S64x37x37x512 : Shape := ⟨4, ![64, 37, 37, 512]⟩
abbrev S64x14x512 : Shape := ⟨3, ![64, 14, 512]⟩
abbrev S1x37x37x512 : Shape := ⟨4, ![1, 37, 37, 512]⟩
abbrev S1x14x512 : Shape := ⟨3, ![1, 14, 512]⟩
abbrev S37x37x512 : Shape := ⟨3, ![37, 37, 512]⟩
abbrev S37x512 : Shape := ⟨2, ![37, 512]⟩
abbrev S512 : Shape := ⟨1, ![512]⟩
abbrev S1x1x512 : Shape := ⟨3, ![1, 1, 512]⟩
abbrev S1x24x24x512 : Shape := ⟨4, ![1, 24, 24, 512]⟩
abbrev S24x24x512 : Shape := ⟨3, ![24, 24, 512]⟩
abbrev S24x512 : Shape := ⟨2, ![24, 512]⟩
abbrev S1x18x18x512 : Shape := ⟨4, ![1, 18, 18, 512]⟩
abbrev S18x18x512 : Shape := ⟨3, ![18, 18, 512]⟩
abbrev S18x512 : Shape := ⟨2, ![18, 512]⟩

abbrev nBuf : Space → Nat
  | .hbm => 2
  | .vmem => 4
  | .smem => 0
  | _ => 0

abbrev bufTy : (tb : Table) → Fin (tcTables nBuf tb) → BufTy
  | .hbm, ⟨0, _⟩ => ⟨S64x37x37x512, .f32⟩
  | .hbm, ⟨1, _⟩ => ⟨S64x14x512, .f32⟩
  | .local _ .vmem, ⟨0, _⟩ => ⟨S1x37x37x512, .f32⟩
  | .local _ .vmem, ⟨1, _⟩ => ⟨S1x37x37x512, .f32⟩
  | .local _ .vmem, ⟨2, _⟩ => ⟨S1x14x512, .f32⟩
  | .local _ .vmem, ⟨3, _⟩ => ⟨S1x14x512, .f32⟩
  | _, _ => ⟨S64x37x37x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x37x37x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x14x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x37x37x512_S1x37x37x512_0_0_0_0 : ∀ a, (![0, 0, 0, 0] : Fin 4 → Nat) a + S1x37x37x512.size a ≤ S1x37x37x512.size a
  h_S1x37x37x512 : 0 < S1x37x37x512.numel
  shapeCasts_S1x37x37x512_S37x37x512 : S1x37x37x512.ShapeCasts S37x37x512
  reduces_S37x37x512_S37x512 : S37x37x512.Reduces [0] S37x512
  reduces_S37x512_S512 : S37x512.Reduces [0] S512
  inb_S1x14x512_S1x1x512_0_0_0 : ∀ a, (![0, 0, 0] : Fin 3 → Nat) a + S1x1x512.size a ≤ S1x14x512.size a
  h_S1x1x512 : 0 < S1x1x512.numel
  shapeCasts_S1x1x512_S512 : S1x1x512.ShapeCasts S512
  shapeCasts_S512_S1x1x512 : S512.ShapeCasts S1x1x512
  inb_S1x37x37x512_S1x24x24x512_0_0_0_0 : ∀ a, (![0, 0, 0, 0] : Fin 4 → Nat) a + S1x24x24x512.size a ≤ S1x37x37x512.size a
  h_S1x24x24x512 : 0 < S1x24x24x512.numel
  shapeCasts_S1x24x24x512_S24x24x512 : S1x24x24x512.ShapeCasts S24x24x512
  reduces_S24x24x512_S24x512 : S24x24x512.Reduces [0] S24x512
  reduces_S24x512_S512 : S24x512.Reduces [0] S512
  inb_S1x14x512_S1x1x512_0_1_0 : ∀ a, (![0, 1, 0] : Fin 3 → Nat) a + S1x1x512.size a ≤ S1x14x512.size a
  inb_S1x37x37x512_S1x24x24x512_0_0_13_0 : ∀ a, (![0, 0, 13, 0] : Fin 4 → Nat) a + S1x24x24x512.size a ≤ S1x37x37x512.size a
  inb_S1x14x512_S1x1x512_0_2_0 : ∀ a, (![0, 2, 0] : Fin 3 → Nat) a + S1x1x512.size a ≤ S1x14x512.size a
  inb_S1x37x37x512_S1x24x24x512_0_13_0_0 : ∀ a, (![0, 13, 0, 0] : Fin 4 → Nat) a + S1x24x24x512.size a ≤ S1x37x37x512.size a
  inb_S1x14x512_S1x1x512_0_3_0 : ∀ a, (![0, 3, 0] : Fin 3 → Nat) a + S1x1x512.size a ≤ S1x14x512.size a
  inb_S1x37x37x512_S1x24x24x512_0_13_13_0 : ∀ a, (![0, 13, 13, 0] : Fin 4 → Nat) a + S1x24x24x512.size a ≤ S1x37x37x512.size a
  inb_S1x14x512_S1x1x512_0_4_0 : ∀ a, (![0, 4, 0] : Fin 3 → Nat) a + S1x1x512.size a ≤ S1x14x512.size a
  inb_S1x37x37x512_S1x18x18x512_0_0_0_0 : ∀ a, (![0, 0, 0, 0] : Fin 4 → Nat) a + S1x18x18x512.size a ≤ S1x37x37x512.size a
  h_S1x18x18x512 : 0 < S1x18x18x512.numel
  shapeCasts_S1x18x18x512_S18x18x512 : S1x18x18x512.ShapeCasts S18x18x512
  reduces_S18x18x512_S18x512 : S18x18x512.Reduces [0] S18x512
  reduces_S18x512_S512 : S18x512.Reduces [0] S512
  inb_S1x14x512_S1x1x512_0_5_0 : ∀ a, (![0, 5, 0] : Fin 3 → Nat) a + S1x1x512.size a ≤ S1x14x512.size a
  inb_S1x37x37x512_S1x18x18x512_0_0_9_0 : ∀ a, (![0, 0, 9, 0] : Fin 4 → Nat) a + S1x18x18x512.size a ≤ S1x37x37x512.size a
  inb_S1x14x512_S1x1x512_0_6_0 : ∀ a, (![0, 6, 0] : Fin 3 → Nat) a + S1x1x512.size a ≤ S1x14x512.size a
  inb_S1x37x37x512_S1x18x18x512_0_0_19_0 : ∀ a, (![0, 0, 19, 0] : Fin 4 → Nat) a + S1x18x18x512.size a ≤ S1x37x37x512.size a
  inb_S1x14x512_S1x1x512_0_7_0 : ∀ a, (![0, 7, 0] : Fin 3 → Nat) a + S1x1x512.size a ≤ S1x14x512.size a
  inb_S1x37x37x512_S1x18x18x512_0_9_0_0 : ∀ a, (![0, 9, 0, 0] : Fin 4 → Nat) a + S1x18x18x512.size a ≤ S1x37x37x512.size a
  inb_S1x14x512_S1x1x512_0_8_0 : ∀ a, (![0, 8, 0] : Fin 3 → Nat) a + S1x1x512.size a ≤ S1x14x512.size a
  inb_S1x37x37x512_S1x18x18x512_0_9_9_0 : ∀ a, (![0, 9, 9, 0] : Fin 4 → Nat) a + S1x18x18x512.size a ≤ S1x37x37x512.size a
  inb_S1x14x512_S1x1x512_0_9_0 : ∀ a, (![0, 9, 0] : Fin 3 → Nat) a + S1x1x512.size a ≤ S1x14x512.size a
  inb_S1x37x37x512_S1x18x18x512_0_9_19_0 : ∀ a, (![0, 9, 19, 0] : Fin 4 → Nat) a + S1x18x18x512.size a ≤ S1x37x37x512.size a
  inb_S1x14x512_S1x1x512_0_10_0 : ∀ a, (![0, 10, 0] : Fin 3 → Nat) a + S1x1x512.size a ≤ S1x14x512.size a
  inb_S1x37x37x512_S1x18x18x512_0_19_0_0 : ∀ a, (![0, 19, 0, 0] : Fin 4 → Nat) a + S1x18x18x512.size a ≤ S1x37x37x512.size a
  inb_S1x14x512_S1x1x512_0_11_0 : ∀ a, (![0, 11, 0] : Fin 3 → Nat) a + S1x1x512.size a ≤ S1x14x512.size a
  inb_S1x37x37x512_S1x18x18x512_0_19_9_0 : ∀ a, (![0, 19, 9, 0] : Fin 4 → Nat) a + S1x18x18x512.size a ≤ S1x37x37x512.size a
  inb_S1x14x512_S1x1x512_0_12_0 : ∀ a, (![0, 12, 0] : Fin 3 → Nat) a + S1x1x512.size a ≤ S1x14x512.size a
  inb_S1x37x37x512_S1x18x18x512_0_19_19_0 : ∀ a, (![0, 19, 19, 0] : Fin 4 → Nat) a + S1x18x18x512.size a ≤ S1x37x37x512.size a
  inb_S1x14x512_S1x1x512_0_13_0 : ∀ a, (![0, 13, 0] : Fin 3 → Nat) a + S1x1x512.size a ≤ S1x14x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x37x37x512.size a ≤ S64x37x37x512.size a
  hwx0_0 : ∀ i : grid0.Coords, EltTy.bits .f32 = 32 ∨ (Rect.block (s := S64x37x37x512) S1x37x37x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x14x512.size a ≤ S64x14x512.size a
  hwx0_1 : ∀ i : grid0.Coords, EltTy.bits .f32 = 32 ∨ (Rect.block (s := S64x14x512) S1x14x512.size (cc0_transform_1 i) (hinb0_1 i)).WholeWords (EltTy.packing .f32)

variable [Facts₀]

abbrev win0_0 : Pipeline.Window sig grid0 :=
  Pipeline.Window.ofSpec (Memref.whole main_arg0) S1x37x37x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x14x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x37x37x512 : Shape := ⟨4, ![64, 37, 37, 512]⟩
abbrev S_ : Shape := ⟨0, ![]⟩
abbrev S64x512 : Shape := ⟨2, ![64, 512]⟩
abbrev S64x24x24x512 : Shape := ⟨4, ![64, 24, 24, 512]⟩
abbrev S64x18x18x512 : Shape := ⟨4, ![64, 18, 18, 512]⟩
abbrev S64x1x512 : Shape := ⟨3, ![64, 1, 512]⟩
abbrev S64x14x512 : Shape := ⟨3, ![64, 14, 512]⟩

abbrev nBuf : Space → Nat
  | .hbm => 57
  | .vmem => 0
  | .smem => 0
  | _ => 0

abbrev bufTy : (tb : Table) → Fin (tcTables nBuf tb) → BufTy
  | .hbm, ⟨0, _⟩ => ⟨S64x37x37x512, .f32⟩
  | .hbm, ⟨1, _⟩ => ⟨S_, .f32⟩
  | .hbm, ⟨2, _⟩ => ⟨S64x512, .f32⟩
  | .hbm, ⟨3, _⟩ => ⟨S64x24x24x512, .f32⟩
  | .hbm, ⟨4, _⟩ => ⟨S_, .f32⟩
  | .hbm, ⟨5, _⟩ => ⟨S64x512, .f32⟩
  | .hbm, ⟨6, _⟩ => ⟨S64x24x24x512, .f32⟩
  | .hbm, ⟨7, _⟩ => ⟨S_, .f32⟩
  | .hbm, ⟨8, _⟩ => ⟨S64x512, .f32⟩
  | .hbm, ⟨9, _⟩ => ⟨S64x24x24x512, .f32⟩
  | .hbm, ⟨10, _⟩ => ⟨S_, .f32⟩
  | .hbm, ⟨11, _⟩ => ⟨S64x512, .f32⟩
  | .hbm, ⟨12, _⟩ => ⟨S64x24x24x512, .f32⟩
  | .hbm, ⟨13, _⟩ => ⟨S_, .f32⟩
  | .hbm, ⟨14, _⟩ => ⟨S64x512, .f32⟩
  | .hbm, ⟨15, _⟩ => ⟨S64x18x18x512, .f32⟩
  | .hbm, ⟨16, _⟩ => ⟨S_, .f32⟩
  | .hbm, ⟨17, _⟩ => ⟨S64x512, .f32⟩
  | .hbm, ⟨18, _⟩ => ⟨S64x18x18x512, .f32⟩
  | .hbm, ⟨19, _⟩ => ⟨S_, .f32⟩
  | .hbm, ⟨20, _⟩ => ⟨S64x512, .f32⟩
  | .hbm, ⟨21, _⟩ => ⟨S64x18x18x512, .f32⟩
  | .hbm, ⟨22, _⟩ => ⟨S_, .f32⟩
  | .hbm, ⟨23, _⟩ => ⟨S64x512, .f32⟩
  | .hbm, ⟨24, _⟩ => ⟨S64x18x18x512, .f32⟩
  | .hbm, ⟨25, _⟩ => ⟨S_, .f32⟩
  | .hbm, ⟨26, _⟩ => ⟨S64x512, .f32⟩
  | .hbm, ⟨27, _⟩ => ⟨S64x18x18x512, .f32⟩
  | .hbm, ⟨28, _⟩ => ⟨S_, .f32⟩
  | .hbm, ⟨29, _⟩ => ⟨S64x512, .f32⟩
  | .hbm, ⟨30, _⟩ => ⟨S64x18x18x512, .f32⟩
  | .hbm, ⟨31, _⟩ => ⟨S_, .f32⟩
  | .hbm, ⟨32, _⟩ => ⟨S64x512, .f32⟩
  | .hbm, ⟨33, _⟩ => ⟨S64x18x18x512, .f32⟩
  | .hbm, ⟨34, _⟩ => ⟨S_, .f32⟩
  | .hbm, ⟨35, _⟩ => ⟨S64x512, .f32⟩
  | .hbm, ⟨36, _⟩ => ⟨S64x18x18x512, .f32⟩
  | .hbm, ⟨37, _⟩ => ⟨S_, .f32⟩
  | .hbm, ⟨38, _⟩ => ⟨S64x512, .f32⟩
  | .hbm, ⟨39, _⟩ => ⟨S64x18x18x512, .f32⟩
  | .hbm, ⟨40, _⟩ => ⟨S_, .f32⟩
  | .hbm, ⟨41, _⟩ => ⟨S64x512, .f32⟩
  | .hbm, ⟨42, _⟩ => ⟨S64x1x512, .f32⟩
  | .hbm, ⟨43, _⟩ => ⟨S64x1x512, .f32⟩
  | .hbm, ⟨44, _⟩ => ⟨S64x1x512, .f32⟩
  | .hbm, ⟨45, _⟩ => ⟨S64x1x512, .f32⟩
  | .hbm, ⟨46, _⟩ => ⟨S64x1x512, .f32⟩
  | .hbm, ⟨47, _⟩ => ⟨S64x1x512, .f32⟩
  | .hbm, ⟨48, _⟩ => ⟨S64x1x512, .f32⟩
  | .hbm, ⟨49, _⟩ => ⟨S64x1x512, .f32⟩
  | .hbm, ⟨50, _⟩ => ⟨S64x1x512, .f32⟩
  | .hbm, ⟨51, _⟩ => ⟨S64x1x512, .f32⟩
  | .hbm, ⟨52, _⟩ => ⟨S64x1x512, .f32⟩
  | .hbm, ⟨53, _⟩ => ⟨S64x1x512, .f32⟩
  | .hbm, ⟨54, _⟩ => ⟨S64x1x512, .f32⟩
  | .hbm, ⟨55, _⟩ => ⟨S64x1x512, .f32⟩
  | .hbm, ⟨56, _⟩ => ⟨S64x14x512, .f32⟩
  | _, _ => ⟨S64x37x37x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_cst_5 : Ref sig .tc := ⟨.hbm, 19, rfl⟩
abbrev main_v12 : Ref sig .tc := ⟨.hbm, 20, rfl⟩
abbrev main_v13 : Ref sig .tc := ⟨.hbm, 21, rfl⟩
abbrev main_cst_6 : Ref sig .tc := ⟨.hbm, 22, rfl⟩
abbrev main_v14 : Ref sig .tc := ⟨.hbm, 23, rfl⟩
abbrev main_v15 : Ref sig .tc := ⟨.hbm, 24, rfl⟩
abbrev main_cst_7 : Ref sig .tc := ⟨.hbm, 25, rfl⟩
abbrev main_v16 : Ref sig .tc := ⟨.hbm, 26, rfl⟩
abbrev main_v17 : Ref sig .tc := ⟨.hbm, 27, rfl⟩
abbrev main_cst_8 : Ref sig .tc := ⟨.hbm, 28, rfl⟩
abbrev main_v18 : Ref sig .tc := ⟨.hbm, 29, rfl⟩
abbrev main_v19 : Ref sig .tc := ⟨.hbm, 30, rfl⟩
abbrev main_cst_9 : Ref sig .tc := ⟨.hbm, 31, rfl⟩
abbrev main_v20 : Ref sig .tc := ⟨.hbm, 32, rfl⟩
abbrev main_v21 : Ref sig .tc := ⟨.hbm, 33, rfl⟩
abbrev main_cst_10 : Ref sig .tc := ⟨.hbm, 34, rfl⟩
abbrev main_v22 : Ref sig .tc := ⟨.hbm, 35, rfl⟩
abbrev main_v23 : Ref sig .tc := ⟨.hbm, 36, rfl⟩
abbrev main_cst_11 : Ref sig .tc := ⟨.hbm, 37, rfl⟩
abbrev main_v24 : Ref sig .tc := ⟨.hbm, 38, rfl⟩
abbrev main_v25 : Ref sig .tc := ⟨.hbm, 39, rfl⟩
abbrev main_cst_12 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  reducesTo_S64x37x37x512_S64x512_d1_2 : S64x37x37x512.ReducesTo [1, 2] S64x512
  h_S_ : 0 < S_.numel
  slices_S64x37x37x512_S64x24x24x512_0_0_0_0 : S64x37x37x512.Slices ![0, 0, 0, 0] S64x24x24x512
  reducesTo_S64x24x24x512_S64x512_d1_2 : S64x24x24x512.ReducesTo [1, 2] S64x512
  slices_S64x37x37x512_S64x24x24x512_0_0_13_0 : S64x37x37x512.Slices ![0, 0, 13, 0] S64x24x24x512
  slices_S64x37x37x512_S64x24x24x512_0_13_0_0 : S64x37x37x512.Slices ![0, 13, 0, 0] S64x24x24x512
  slices_S64x37x37x512_S64x24x24x512_0_13_13_0 : S64x37x37x512.Slices ![0, 13, 13, 0] S64x24x24x512
  slices_S64x37x37x512_S64x18x18x512_0_0_0_0 : S64x37x37x512.Slices ![0, 0, 0, 0] S64x18x18x512
  reducesTo_S64x18x18x512_S64x512_d1_2 : S64x18x18x512.ReducesTo [1, 2] S64x512
  slices_S64x37x37x512_S64x18x18x512_0_0_9_0 : S64x37x37x512.Slices ![0, 0, 9, 0] S64x18x18x512
  slices_S64x37x37x512_S64x18x18x512_0_0_19_0 : S64x37x37x512.Slices ![0, 0, 19, 0] S64x18x18x512
  slices_S64x37x37x512_S64x18x18x512_0_9_0_0 : S64x37x37x512.Slices ![0, 9, 0, 0] S64x18x18x512
  slices_S64x37x37x512_S64x18x18x512_0_9_9_0 : S64x37x37x512.Slices ![0, 9, 9, 0] S64x18x18x512
  slices_S64x37x37x512_S64x18x18x512_0_9_19_0 : S64x37x37x512.Slices ![0, 9, 19, 0] S64x18x18x512
  slices_S64x37x37x512_S64x18x18x512_0_19_0_0 : S64x37x37x512.Slices ![0, 19, 0, 0] S64x18x18x512
  slices_S64x37x37x512_S64x18x18x512_0_19_9_0 : S64x37x37x512.Slices ![0, 19, 9, 0] S64x18x18x512
  slices_S64x37x37x512_S64x18x18x512_0_19_19_0 : S64x37x37x512.Slices ![0, 19, 19, 0] S64x18x18x512
  bcast_S64x512_S64x1x512_0_2 : S64x512.BroadcastsInDim S64x1x512 (![0, 2] : Fin 2 → Fin S64x1x512.rank)
  concatenates_S64x1x512_S64x1x512_S64x1x512_S64x1x512_S64x1x512_S64x1x512_S64x1x512_S64x1x512_S64x1x512_S64x1x512_S64x1x512_S64x1x512_S64x1x512_S64x1x512_S64x14x512_d1 : Shape.Concatenates [S64x1x512, S64x1x512, S64x1x512, S64x1x512, S64x1x512, S64x1x512, S64x1x512, S64x1x512, S64x1x512, S64x1x512, S64x1x512, S64x1x512, S64x1x512, S64x1x512] S64x14x512 1

variable [Facts₀]

class Facts : Prop extends Facts₀ where

variable [Facts]
-- ==== Proof.Pooled.lean ====
/-
  Regional maximum pooling over a three-level pyramid of square windows, stated once, over natural-number
  coordinates, for a feature map of any batch extent.

  The map is `X[b, h, w, c]` with 37 rows, 37 columns and 512 channels.  Level one is the whole map, level two
  the four 24 × 24 windows at row and column offsets 0 and 13, level three the nine 18 × 18 windows at offsets
  0, 9 and 19: fourteen windows, listed rows first.  The pooled array is
      `P[b, r, c] = max over (h, w) in window r of X[b, oy_r + h, ox_r + w, c]`,
  the maximum of an empty family being −∞.  On the extended reals a maximum started from −∞ is the supremum
  of a finite family, and a supremum does not care how its family is enumerated: rows inside columns, columns
  inside rows, or all pairs at once.  That is the only law the two programs differ by, and it needs no
  finiteness of the entries.
-/
import Idealize.ShloMosaic.PureOps.Ideal.Laws
import Idealize.ShloMosaic.Lib.ValueIdx
import Idealize.ShloMosaic.Lib.Pipeline.Value

noncomputable section

namespace Cert.Rmac

open Idealize.ShloMosaic Idealize.ShloMosaic.ValueIdx

/-! ## Maxima from −∞ are suprema -/

/-- The word `0xFF800000` denotes −∞, the least extended real. -/
theorem ninf_eq_bot : (Ideal.ofBits .f32 0xFF800000#32 : EReal) = ⊥ := by
  simp [Ideal.ofBits, Ideal.ieee]

/-- A fold of `max` from −∞ over a finite set is the supremum over that set. -/
theorem fold_max_eq_sup {ι : Type} (S : Finset ι) (f : ι → EReal) :
    S.fold max (FloatOps.ofBits (F := Ideal) .f32 0xFF800000#32) f = S.sup f := by
  classical
  induction S using Finset.induction_on with
  | empty => rw [Finset.fold_empty, Finset.sup_empty]; exact ninf_eq_bot
  | insert a s ha ih => rw [Finset.fold_insert ha, Finset.sup_insert, ih]

/-- The same with the float maximum spelt as the operation of the ideal values. -/
theorem fold_maximumf_eq_sup {ι : Type} (S : Finset ι) (f : ι → EReal) :
    S.fold (FloatOps.maximumf (F := Ideal) (φ := .f32)) (FloatOps.ofBits (F := Ideal) .f32 0xFF800000#32) f = S.sup f :=
  fold_max_eq_sup S f

/-- Two finite suprema are equal when every term of each occurs among the terms of the other. -/
theorem sup_eq_sup_of_corr {ι κ : Type} (S : Finset ι) (T : Finset κ) (f : ι → EReal) (g : κ → EReal)
    (h₁ : ∀ i ∈ S, ∃ k ∈ T, f i = g k) (h₂ : ∀ k ∈ T, ∃ i ∈ S, g k = f i) : S.sup f = T.sup g := by
  apply le_antisymm
  · refine Finset.sup_le fun i hi => ?_
    obtain ⟨k, hk, e⟩ := h₁ i hi
    rw [e]; exact Finset.le_sup (f := g) hk
  · refine Finset.sup_le fun k hk => ?_
    obtain ⟨i, hi, e⟩ := h₂ k hk
    rw [e]; exact Finset.le_sup (f := f) hi

/-! ## Arrays read at natural-number coordinates -/

/-- A rank-4 array read at natural-number coordinates; −∞ outside its extents (never met below: every read
    is inside). -/
def rd4 {n0 n1 n2 n3 : Nat} (X : (⟨4, ![n0, n1, n2, n3]⟩ : Shape).Idx → EReal) (a b c d : Nat) : EReal :=
  if h : a < n0 ∧ b < n1 ∧ c < n2 ∧ d < n3 then X (ix4 ⟨a, h.1⟩ ⟨b, h.2.1⟩ ⟨c, h.2.2.1⟩ ⟨d, h.2.2.2⟩) else ⊥

/-- An entry is the read at its own coordinates. -/
theorem rd4_of_val {n0 n1 n2 n3 : Nat} (X : (⟨4, ![n0, n1, n2, n3]⟩ : Shape).Idx → EReal)
    (i : (⟨4, ![n0, n1, n2, n3]⟩ : Shape).Idx) {a b c d : Nat}
    (h0 : (i 0).val = a) (h1 : (i 1).val = b) (h2 : (i 2).val = c) (h3 : (i 3).val = d) : X i = rd4 X a b c d := by
  subst h0 h1 h2 h3
  unfold rd4
  rw [dif_pos ⟨(i 0).isLt, (i 1).isLt, (i 2).isLt, (i 3).isLt⟩]
  exact congrArg X (eq_ix4 i)

/-- A rank-2 array read at natural-number coordinates. -/
def rd2 {n0 n1 : Nat} (u : (⟨2, ![n0, n1]⟩ : Shape).Idx → EReal) (a b : Nat) : EReal :=
  if h : a < n0 ∧ b < n1 then u (ix2 ⟨a, h.1⟩ ⟨b, h.2⟩) else ⊥

theorem rd2_of_val {n0 n1 : Nat} (u : (⟨2, ![n0, n1]⟩ : Shape).Idx → EReal) (i : (⟨2, ![n0, n1]⟩ : Shape).Idx)
    {a b : Nat} (h0 : (i 0).val = a) (h1 : (i 1).val = b) : u i = rd2 u a b := by
  subst h0 h1
  unfold rd2
  rw [dif_pos ⟨(i 0).isLt, (i 1).isLt⟩]
  exact congrArg u (eq_ix2 i)

/-! ## The windows and the pooled array -/

/-- The maximum of channel `c` of image `b` over the `n × n` window whose first row is `oy` and first column `ox`:
    columns outside, rows inside. -/
def crop {n0 n1 n2 n3 : Nat} (X : (⟨4, ![n0, n1, n2, n3]⟩ : Shape).Idx → EReal) (n oy ox b c : Nat) : EReal :=
  (Finset.range n).sup fun w => (Finset.range n).sup fun h => rd4 X b (oy + h) (ox + w) c

/-- The same maximum taken over all (row, column) pairs of the window at once. -/
theorem crop_eq_sup_pairs {n0 n1 n2 n3 : Nat} (X : (⟨4, ![n0, n1, n2, n3]⟩ : Shape).Idx → EReal) (n oy ox b c : Nat) :
    crop X n oy ox b c = (Finset.range n ×ˢ Finset.range n).sup fun p => rd4 X b (oy + p.1) (ox + p.2) c := by
  unfold crop
  rw [Finset.sup_product_right]

/-- The fourteen windows: side, first row, first column. -/
def region : Nat → Nat × Nat × Nat
  | 0 => (37, 0, 0)
  | 1 => (24, 0, 0) | 2 => (24, 0, 13) | 3 => (24, 13, 0) | 4 => (24, 13, 13)
  | 5 => (18, 0, 0) | 6 => (18, 0, 9) | 7 => (18, 0, 19)
  | 8 => (18, 9, 0) | 9 => (18, 9, 9) | 10 => (18, 9, 19)
  | 11 => (18, 19, 0) | 12 => (18, 19, 9) | 13 => (18, 19, 19)
  | _ => (0, 0, 0)

/-- The pooled array of a map with `B` images: entry `(b, r, c)` is the maximum of channel `c` of image `b` over window `r`. -/
def pooled {B : Nat} (X : (⟨4, ![B, 37, 37, 512]⟩ : Shape).Idx → EReal) (j : (⟨3, ![B, 14, 512]⟩ : Shape).Idx) : EReal :=
  crop X (region (j 1).val).1 (region (j 1).val).2.1 (region (j 1).val).2.2 (j 0).val (j 2).val

end Cert.Rmac

end
-- ==== Proof.WindowMax.lean ====
/-
  The three ways the two programs take a window's maximum, each read at an index as a supremum over the
  window's rows, its columns, or its (row, column) pairs.

  * a reduction over the FIRST axis of an `n × n × 512` block (given with a leading unit axis): at `(w, c)` the
    supremum over the rows `r` of the block at `(r, w, c)`;
  * a reduction over the first axis of the resulting `n × 512` array, stored as a `1 × 1 × 512` row: at channel `c`
    the supremum over the columns `w`;
  * one reduction over BOTH middle axes of a `B × n × n × 512` array: at `(b, c)` the supremum over all pairs.
  Each reduction is a fold of `max` from −∞ over the indices that drop to the result index; the fold is a
  supremum, and the supremum is re-indexed by the coordinates that vary.
-/
import proofs.«134663_j41721312314087_1_alg».proof.Proof.Pooled

noncomputable section

namespace Cert.Rmac

open Idealize.ShloMosaic Idealize.ShloMosaic.ValueIdx

variable {n : Nat}

/-- Rows: the maximum over the first axis of an `n × n × 512` block at `(w, c)`. -/
theorem rowsMax (v : (⟨4, ![1, n, n, 512]⟩ : Shape).Idx → EReal)
    (hc : (⟨4, ![1, n, n, 512]⟩ : Shape).ShapeCasts ⟨3, ![n, n, 512]⟩)
    (h : (⟨3, ![n, n, 512]⟩ : Shape).Reduces [0] ⟨2, ![n, 512]⟩)
    (hφ : FKind.Formats .f32) (hacc : (0xFF800000#32 : BitVec 32) = FKind.maximumf.neutral .f32 hφ)
    (i : (⟨2, ![n, 512]⟩ : Shape).Idx) :
    multiReduction (F := Ideal) .maximumf [0] ⟨2, ![n, 512]⟩ (shapeCast ⟨3, ![n, n, 512]⟩ v hc) 0xFF800000#32 h hφ hacc i
      = (Finset.range n).sup fun r => rd4 v 0 r (i 0).val (i 1).val := by
  rw [Ideal.multiReduction_maximumf_single, fold_max_eq_sup]
  refine sup_eq_sup_of_corr _ _ _ _ (fun k _ => ⟨k.val, Finset.mem_range.2 k.isLt, ?_⟩)
    (fun r hr => ⟨⟨r, Finset.mem_range.1 hr⟩, Finset.mem_univ _, ?_⟩)
  · show shapeCast _ v hc (h.lift i k) = _
    rw [shapeCast_dropUnit_apply ![n, n, 512] v hc (h.lift i k)]
    exact rd4_of_val v _ rfl rfl rfl rfl
  · symm
    show shapeCast _ v hc (h.lift i ⟨r, Finset.mem_range.1 hr⟩) = _
    rw [shapeCast_dropUnit_apply ![n, n, 512] v hc]
    exact rd4_of_val v _ rfl rfl rfl rfl

/-- Columns: the maximum over the first axis of an `n × 512` array, laid out as a `1 × 1 × 512` row, at channel `y 2`. -/
theorem colsMax (u : (⟨2, ![n, 512]⟩ : Shape).Idx → EReal)
    (h : (⟨2, ![n, 512]⟩ : Shape).Reduces [0] ⟨1, ![512]⟩)
    (hc : (⟨1, ![512]⟩ : Shape).ShapeCasts ⟨3, ![1, 1, 512]⟩)
    (hφ : FKind.Formats .f32) (hacc : (0xFF800000#32 : BitVec 32) = FKind.maximumf.neutral .f32 hφ)
    (y : (⟨3, ![1, 1, 512]⟩ : Shape).Idx) :
    shapeCast ⟨3, ![1, 1, 512]⟩ (multiReduction (F := Ideal) .maximumf [0] ⟨1, ![512]⟩ u 0xFF800000#32 h hφ hacc) hc y
      = (Finset.range n).sup fun w => rd2 u w (y 2).val := by
  have h0 : (y 0).val = 0 := Nat.lt_one_iff.1 (y 0).isLt
  have h1 : (y 1).val = 0 := Nat.lt_one_iff.1 (y 1).isLt
  rw [shapeCast_apply _ hc y (ix1 (n := 512) (y 2)) (by
    rw [Shape.rowMajor_val_one, Shape.rowMajor_val_three, h0, h1]
    show (y 2).val = (0 * 1 + 0) * 512 + (y 2).val
    omega)]
  rw [Ideal.multiReduction_maximumf_single, fold_max_eq_sup]
  refine sup_eq_sup_of_corr _ _ _ _ (fun k _ => ⟨k.val, Finset.mem_range.2 k.isLt, ?_⟩)
    (fun w hw => ⟨⟨w, Finset.mem_range.1 hw⟩, Finset.mem_univ _, ?_⟩)
  · exact rd2_of_val u _ rfl rfl
  · symm; exact rd2_of_val u _ rfl rfl

/-- Both at once, the way a host reduction over the two middle axes takes it: at `(b, c)` the supremum over all
    (row, column) pairs. -/
theorem pairsMax {B : Nat} (Y : (⟨4, ![B, n, n, 512]⟩ : Shape).Idx → EReal)
    (hr : (⟨4, ![B, n, n, 512]⟩ : Shape).ReducesTo [1, 2] ⟨2, ![B, 512]⟩)
    (init : (⟨0, ![]⟩ : Shape).Idx → EReal) (hinit : ∀ z, init z = FloatOps.ofBits (F := Ideal) .f32 0xFF800000#32)
    (hu : 0 < (⟨0, ![]⟩ : Shape).numel) (q : (⟨2, ![B, 512]⟩ : Shape).Idx) :
    Host.reduce (FloatOps.maximumf (F := Ideal) (φ := .f32)) Y init hr hu q
      = (Finset.range n ×ˢ Finset.range n).sup fun p => rd4 Y (q 0).val p.1 p.2 (q 1).val := by
  rw [Host.reduce_eq_fold, hinit, fold_maximumf_eq_sup]
  refine sup_eq_sup_of_corr _ _ _ _ (fun i hi => ?_) (fun p hp => ?_)
  · have hi' : hr.drop i = q := (Finset.mem_filter.1 hi).2
    have e0 : (i 0).val = (q 0).val := by
      rw [← hi']; exact (hr.drop_apply_val_of_eq i 0 0 Nat.zero_lt_two rfl).symm
    have e3 : (i 3).val = (q 1).val := by
      rw [← hi']; exact (hr.drop_apply_val_of_eq i 1 3 Nat.one_lt_two rfl).symm
    exact ⟨((i 1).val, (i 2).val),
      Finset.mem_product.2 ⟨Finset.mem_range.2 (i 1).isLt, Finset.mem_range.2 (i 2).isLt⟩,
      rd4_of_val Y i e0 rfl rfl e3⟩
  · obtain ⟨h1, h2⟩ := Finset.mem_product.1 hp
    refine ⟨ix4 (q 0) ⟨p.1, Finset.mem_range.1 h1⟩ ⟨p.2, Finset.mem_range.1 h2⟩ (q 1),
      Finset.mem_filter.2 ⟨Finset.mem_univ _, ?_⟩, ?_⟩
    swap
    · symm; exact rd4_of_val Y _ rfl rfl rfl rfl
    funext b
    apply Fin.ext
    match b with
    | ⟨0, _⟩ => exact hr.drop_apply_val_of_eq _ 0 0 Nat.zero_lt_two rfl
    | ⟨1, _⟩ => exact hr.drop_apply_val_of_eq _ 1 3 Nat.one_lt_two rfl

end Cert.Rmac

end
-- ==== Proof.Blocks.lean ====
/-
  One image at a time.

  * Pooling is per image: if the one-image map `x0` is image `b` of the whole map `X`, the pooled array of `x0` at
    `(0, r, c)` is the pooled array of `X` at `(b, r, c)`.
  * Row `r` of a one-image pooled array, addressed through the `1 × 1 × 512` rectangle at `(0, r, 0)`, is window `r`'s
    maximum per channel.
  * An `n × n` crop loaded through the rectangle at `(0, oy, ox, 0)` reads the image at the shifted coordinates.
  * Taking the crop's maximum over its rows and then over its columns is window `(n, oy, ox)`'s maximum: the supremum
    over columns of the suprema over rows is how the window's maximum was written down.
-/
import proofs.«134663_j41721312314087_1_alg».proof.Proof.WindowMax

noncomputable section

namespace Cert.Rmac

open Idealize.ShloMosaic Idealize.ShloMosaic.ValueIdx

/-- Pooling is per image. -/
theorem pooled_image {B : Nat} (X : (⟨4, ![B, 37, 37, 512]⟩ : Shape).Idx → EReal)
    (x0 : (⟨4, ![1, 37, 37, 512]⟩ : Shape).Idx → EReal) (b : Nat)
    (hx : ∀ h w c, rd4 x0 0 h w c = rd4 X b h w c)
    (j : (⟨3, ![1, 14, 512]⟩ : Shape).Idx) (i : (⟨3, ![B, 14, 512]⟩ : Shape).Idx)
    (h0 : (i 0).val = b) (h1 : (i 1).val = (j 1).val) (h2 : (i 2).val = (j 2).val) : pooled x0 j = pooled X i := by
  have hj0 : (j 0).val = 0 := Nat.lt_one_iff.1 (j 0).isLt
  unfold pooled crop
  rw [h0, h1, h2, hj0]
  simp only [hx]

/-- Row `r` of a one-image pooled array through its `1 × 1 × 512` rectangle. -/
theorem pooled_row (x0 : (⟨4, ![1, 37, 37, 512]⟩ : Shape).Idx → EReal) (r : Nat)
    (inb : ∀ a, (![0, r, 0] : Fin 3 → Nat) a + (⟨3, ![1, 1, 512]⟩ : Shape).size a ≤ (⟨3, ![1, 14, 512]⟩ : Shape).size a)
    (x : (⟨3, ![1, 1, 512]⟩ : Shape).Idx) :
    pooled x0 ((Rect.unit (s := ⟨3, ![1, 14, 512]⟩) ![0, r, 0] (⟨3, ![1, 1, 512]⟩ : Shape).size inb).emb x)
      = crop x0 (region r).1 (region r).2.1 (region r).2.2 0 (x 2).val := by
  have h0 : (x 0).val = 0 := Nat.lt_one_iff.1 (x 0).isLt
  have h1 : (x 1).val = 0 := Nat.lt_one_iff.1 (x 1).isLt
  have e0 : (((Rect.unit (s := ⟨3, ![1, 14, 512]⟩) ![0, r, 0] (⟨3, ![1, 1, 512]⟩ : Shape).size inb).emb x) 0).val = 0 := by
    show 0 + 1 * (x 0).val = 0; omega
  have e1 : (((Rect.unit (s := ⟨3, ![1, 14, 512]⟩) ![0, r, 0] (⟨3, ![1, 1, 512]⟩ : Shape).size inb).emb x) 1).val = r := by
    show r + 1 * (x 1).val = r; omega
  have e2 : (((Rect.unit (s := ⟨3, ![1, 14, 512]⟩) ![0, r, 0] (⟨3, ![1, 1, 512]⟩ : Shape).size inb).emb x) 2).val = (x 2).val := by
    show 0 + 1 * (x 2).val = (x 2).val; omega
  unfold pooled
  rw [e0, e1, e2]

variable {n : Nat}

/-- A crop loaded through the rectangle at `(0, oy, ox, 0)` reads the image at the shifted coordinates. -/
theorem rd4_ld {oy ox : Nat} (x0 : (⟨4, ![1, 37, 37, 512]⟩ : Shape).Idx → EReal)
    (inb : ∀ a, (![0, oy, ox, 0] : Fin 4 → Nat) a + (⟨4, ![1, n, n, 512]⟩ : Shape).size a ≤ (⟨4, ![1, 37, 37, 512]⟩ : Shape).size a)
    {h w c : Nat} (hh : h < n) (hw : w < n) (hc : c < 512) :
    rd4 (n0 := 1) (n1 := n) (n2 := n) (n3 := 512)
        (View.ld (Val := Elt Ideal) (e' := .f32) x0 (Rect.unit (s := ⟨4, ![1, 37, 37, 512]⟩) ![0, oy, ox, 0] (⟨4, ![1, n, n, 512]⟩ : Shape).size inb)) 0 h w c
      = rd4 x0 0 (oy + h) (ox + w) c := by
  refine (rd4_of_val (a := 0) (b := h) (c := w) (d := c) (n0 := 1) (n1 := n) (n2 := n) (n3 := 512)
    (View.ld (Val := Elt Ideal) (e' := .f32) x0 (Rect.unit (s := ⟨4, ![1, 37, 37, 512]⟩) ![0, oy, ox, 0] (⟨4, ![1, n, n, 512]⟩ : Shape).size inb))
    (ix4 (0 : Fin 1) ⟨h, hh⟩ ⟨w, hw⟩ ⟨c, hc⟩) rfl rfl rfl rfl).symm.trans ?_
  exact rd4_of_val x0 _ (by show 0 + 1 * 0 = 0; rfl) (by show oy + 1 * h = oy + h; omega)
    (by show ox + 1 * w = ox + w; omega) (by show 0 + 1 * c = c; omega)

/-- The maximum over the rows, then over the columns, of the crop at `(oy, ox)` is window `(n, oy, ox)`'s maximum
    of the image, per channel. -/
theorem cropMax {oy ox : Nat} (x0 : (⟨4, ![1, 37, 37, 512]⟩ : Shape).Idx → EReal)
    (inb : ∀ a, (![0, oy, ox, 0] : Fin 4 → Nat) a + (⟨4, ![1, n, n, 512]⟩ : Shape).size a ≤ (⟨4, ![1, 37, 37, 512]⟩ : Shape).size a)
    {hc : (⟨4, ![1, n, n, 512]⟩ : Shape).ShapeCasts ⟨3, ![n, n, 512]⟩}
    {h1 : (⟨3, ![n, n, 512]⟩ : Shape).Reduces [0] ⟨2, ![n, 512]⟩}
    {hφ1 : FKind.Formats .f32} {hacc1 : (0xFF800000#32 : BitVec 32) = FKind.maximumf.neutral .f32 hφ1}
    {h2 : (⟨2, ![n, 512]⟩ : Shape).Reduces [0] ⟨1, ![512]⟩}
    {hφ2 : FKind.Formats .f32} {hacc2 : (0xFF800000#32 : BitVec 32) = FKind.maximumf.neutral .f32 hφ2}
    {hc2 : (⟨1, ![512]⟩ : Shape).ShapeCasts ⟨3, ![1, 1, 512]⟩}
    (y : (⟨3, ![1, 1, 512]⟩ : Shape).Idx) :
    shapeCast ⟨3, ![1, 1, 512]⟩
        (multiReduction (F := Ideal) .maximumf [0] ⟨1, ![512]⟩
          (multiReduction (F := Ideal) .maximumf [0] ⟨2, ![n, 512]⟩
            (shapeCast ⟨3, ![n, n, 512]⟩
              (View.ld (Val := Elt Ideal) (e' := .f32) x0 (Rect.unit (s := ⟨4, ![1, 37, 37, 512]⟩) ![0, oy, ox, 0] (⟨4, ![1, n, n, 512]⟩ : Shape).size inb)) hc)
            0xFF800000#32 h1 hφ1 hacc1)
          0xFF800000#32 h2 hφ2 hacc2) hc2 y
      = crop x0 n oy ox 0 (y 2).val := by
  rw [colsMax]
  unfold crop
  refine Finset.sup_congr rfl fun w hw => ?_
  have hw' : w < n := Finset.mem_range.1 hw
  refine (rd2_of_val (a := w) (b := (y 2).val) _ (ix2 (n0 := n) (n1 := 512) ⟨w, hw'⟩ (y 2)) rfl rfl).symm.trans ?_
  refine (rowsMax _ hc h1 hφ1 hacc1 (ix2 (n0 := n) (n1 := 512) ⟨w, hw'⟩ (y 2))).trans ?_
  refine Finset.sup_congr rfl fun r hr => ?_
  exact rd4_ld x0 inb (Finset.mem_range.1 hr) hw' (y 2).isLt

end Cert.Rmac

end
-- ==== Proof.KernelPooled.lean ====
/-
  The idealized kernel's result is the pooled array of its argument.

  One grid point handles one image.  Its body loads fourteen crops of the image's `1 × 37 × 37 × 512` block, takes
  each crop's maximum over rows and then over columns, and stores the fourteen `512`-channel rows into the
  `1 × 14 × 512` output block: the block it leaves is the pooled array of that one image.  Image `t`'s block of the
  argument is image `t` of the whole map, the output blocks tile the result array along the batch axis, and pooling is
  per image; so after the run the result array is the pooled array of the whole argument.
-/
import proofs.«134663_j41721312314087_1_alg».proof.Proof.Gen.KernelIdeal.Value
import proofs.«134663_j41721312314087_1_alg».proof.Proof.Blocks

set_option maxRecDepth 16384

noncomputable section

namespace Cert.KernelIdeal.Pool

open Cert.KernelIdeal Cert.KernelIdeal.Gen Idealize.ShloMosaic Idealize.ShloMosaic.TcCoe Idealize.SL.Sem
open Idealize.ShloMosaic.Pipeline (Dat)
open Idealize.ShloMosaic.ValueIdx Cert.Rmac

variable (m : (ℓ : Loc nD τ sig) → Buf (Elt Ideal) ℓ) (ρ : Dev nD → PrngReg)

/-! ## The body: one image's block to its pooled block -/

/-- The first store: the whole image's maximum per channel is row 0 of the image's pooled array. -/
theorem row0 (x0 : Vec Ideal S1x37x37x512 .f32) (x : S1x1x512.Idx) :
    k0_pay2 (F := Ideal) (View.ld x0 r0_0) x = pooled (B := 1) x0 (r0_1.emb x) :=
  (cropMax (n := 37) (oy := 0) (ox := 0) (hφ1 := .inl rfl) (hacc1 := rfl) (hφ2 := .inl rfl) (hacc2 := rfl)
    x0 inb_S1x37x37x512_S1x37x37x512_0_0_0_0 x).trans (pooled_row x0 0 inb_S1x14x512_S1x1x512_0_0_0 x).symm

/-- What the body leaves in the output block is the pooled array of the input block: each of its fourteen stores
    writes one row, the maximum of one window of the image, and the rows tile the block. -/
theorem out_eq (x0 : Vec Ideal S1x37x37x512 .f32) : out0_1 (F := Ideal) x0 = pooled (B := 1) x0 := by
  funext y
  unfold out0_1
  refine View.canon_apply_of_pieces (Val := Elt Ideal) (pooled (B := 1) x0) _ ?_ y (cover0_1 _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl
  · intro x
    exact (cropMax (n := 18) (oy := 19) (ox := 19) (hφ1 := .inl rfl) (hacc1 := rfl) (hφ2 := .inl rfl) (hacc2 := rfl)
      x0 inb_S1x37x37x512_S1x18x18x512_0_19_19_0 x).trans (pooled_row x0 13 inb_S1x14x512_S1x1x512_0_13_0 x).symm
  · intro x
    exact (cropMax (n := 18) (oy := 19) (ox := 9) (hφ1 := .inl rfl) (hacc1 := rfl) (hφ2 := .inl rfl) (hacc2 := rfl)
      x0 inb_S1x37x37x512_S1x18x18x512_0_19_9_0 x).trans (pooled_row x0 12 inb_S1x14x512_S1x1x512_0_12_0 x).symm
  · intro x
    exact (cropMax (n := 18) (oy := 19) (ox := 0) (hφ1 := .inl rfl) (hacc1 := rfl) (hφ2 := .inl rfl) (hacc2 := rfl)
      x0 inb_S1x37x37x512_S1x18x18x512_0_19_0_0 x).trans (pooled_row x0 11 inb_S1x14x512_S1x1x512_0_11_0 x).symm
  · intro x
    exact (cropMax (n := 18) (oy := 9) (ox := 19) (hφ1 := .inl rfl) (hacc1 := rfl) (hφ2 := .inl rfl) (hacc2 := rfl)
      x0 inb_S1x37x37x512_S1x18x18x512_0_9_19_0 x).trans (pooled_row x0 10 inb_S1x14x512_S1x1x512_0_10_0 x).symm
  · intro x
    exact (cropMax (n := 18) (oy := 9) (ox := 9) (hφ1 := .inl rfl) (hacc1 := rfl) (hφ2 := .inl rfl) (hacc2 := rfl)
      x0 inb_S1x37x37x512_S1x18x18x512_0_9_9_0 x).trans (pooled_row x0 9 inb_S1x14x512_S1x1x512_0_9_0 x).symm
  · intro x
    exact (cropMax (n := 18) (oy := 9) (ox := 0) (hφ1 := .inl rfl) (hacc1 := rfl) (hφ2 := .inl rfl) (hacc2 := rfl)
      x0 inb_S1x37x37x512_S1x18x18x512_0_9_0_0 x).trans (pooled_row x0 8 inb_S1x14x512_S1x1x512_0_8_0 x).symm
  · intro x
    exact (cropMax (n := 18) (oy := 0) (ox := 19) (hφ1 := .inl rfl) (hacc1 := rfl) (hφ2 := .inl rfl) (hacc2 := rfl)
      x0 inb_S1x37x37x512_S1x18x18x512_0_0_19_0 x).trans (pooled_row x0 7 inb_S1x14x512_S1x1x512_0_7_0 x).symm
  · intro x
    exact (cropMax (n := 18) (oy := 0) (ox := 9) (hφ1 := .inl rfl) (hacc1 := rfl) (hφ2 := .inl rfl) (hacc2 := rfl)
      x0 inb_S1x37x37x512_S1x18x18x512_0_0_9_0 x).trans (pooled_row x0 6 inb_S1x14x512_S1x1x512_0_6_0 x).symm
  · intro x
    exact (cropMax (n := 18) (oy := 0) (ox := 0) (hφ1 := .inl rfl) (hacc1 := rfl) (hφ2 := .inl rfl) (hacc2 := rfl)
      x0 inb_S1x37x37x512_S1x18x18x512_0_0_0_0 x).trans (pooled_row x0 5 inb_S1x14x512_S1x1x512_0_5_0 x).symm
  · intro x
    exact (cropMax (n := 24) (oy := 13) (ox := 13) (hφ1 := .inl rfl) (hacc1 := rfl) (hφ2 := .inl rfl) (hacc2 := rfl)
      x0 inb_S1x37x37x512_S1x24x24x512_0_13_13_0 x).trans (pooled_row x0 4 inb_S1x14x512_S1x1x512_0_4_0 x).symm
  · intro x
    exact (cropMax (n := 24) (oy := 13) (ox := 0) (hφ1 := .inl rfl) (hacc1 := rfl) (hφ2 := .inl rfl) (hacc2 := rfl)
      x0 inb_S1x37x37x512_S1x24x24x512_0_13_0_0 x).trans (pooled_row x0 3 inb_S1x14x512_S1x1x512_0_3_0 x).symm
  · intro x
    exact (cropMax (n := 24) (oy := 0) (ox := 13) (hφ1 := .inl rfl) (hacc1 := rfl) (hφ2 := .inl rfl) (hacc2 := rfl)
      x0 inb_S1x37x37x512_S1x24x24x512_0_0_13_0 x).trans (pooled_row x0 2 inb_S1x14x512_S1x1x512_0_2_0 x).symm
  · intro x
    exact (cropMax (n := 24) (oy := 0) (ox := 0) (hφ1 := .inl rfl) (hacc1 := rfl) (hφ2 := .inl rfl) (hacc2 := rfl)
      x0 inb_S1x37x37x512_S1x24x24x512_0_0_0_0 x).trans (pooled_row x0 1 inb_S1x14x512_S1x1x512_0_1_0 x).symm
  · intro x
    set_option maxRecDepth 200000 in
    exact row0 x0 x

/-! ## The arrays and blocks, at their literal types -/

/-- The argument array as the region finds it. -/
abbrev xarr (c : Dev nD) : Vec Ideal S64x37x37x512 .f32 := V m c main_arg0
/-- Image `t`'s block of it. -/
abbrev xblk (c : Dev nD) (t : Fin cfg0.N) : Vec Ideal S1x37x37x512 .f32 := iblk m c 0 t

theorem xarr_eq (c : Dev nD) : xarr m c = m ((c : Thread nD τ).loc main_arg0) := V_main_arg0 m c

/-- The index maps, decided over the 64 grid points: point `t` takes image `t` of the argument whole, and writes
    block `t` of the result. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- The input block at point `t` is image `t` of the argument, read at natural coordinates. -/
theorem xblk_rd (c : Dev nD) (t : Fin cfg0.N) (h w ch : Nat) :
    rd4 (xblk m c t) 0 h w ch = rd4 (xarr m c) t.val h w ch := by
  obtain ⟨e0, e1, e2, e3, -, -, -⟩ := idx_facts t
  by_cases hin : h < 37 ∧ w < 37 ∧ ch < 512
  · obtain ⟨hh, hw, hc⟩ := hin
    refine (rd4_of_val (a := 0) (b := h) (c := w) (d := ch) (xblk m c t)
      (ix4 (0 : Fin 1) (⟨h, hh⟩ : Fin 37) (⟨w, hw⟩ : Fin 37) (⟨ch, hc⟩ : Fin 512)) rfl rfl rfl rfl).symm.trans ?_
    show V m c main_arg0 (((cfg0.win 0).blk t).view.emb (ix4 (0 : Fin 1) (⟨h, hh⟩ : Fin 37) (⟨w, hw⟩ : Fin 37) (⟨ch, hc⟩ : Fin 512))) = _
    refine rd4_of_val (xarr m c) _ ?_ ?_ ?_ ?_
    · show win0_0.index t (0 : Fin 4) * 1 + 1 * 0 = t.val; omega
    · show win0_0.index t (1 : Fin 4) * 37 + 1 * h = h; omega
    · show win0_0.index t (2 : Fin 4) * 37 + 1 * w = w; omega
    · show win0_0.index t (3 : Fin 4) * 512 + 1 * ch = ch; omega
  · unfold rd4
    rw [dif_neg (fun hh => hin hh.2), dif_neg (fun hh => hin hh.2)]

/-! ## From blocks to the array -/

/-- What point `t` writes back is block `t` of the pooled array of the whole argument. -/
theorem flushed_eq (c : Dev nD) (t : Fin cfg0.N) :
    (dats m 0 c).flushed 1 t = ((cfg0.win 1).blk t).view.read (Elt Ideal) (pooled (B := 64) (xarr m c)) := by
  rw [Value.flushed1, out_eq]
  obtain ⟨-, -, -, -, e4, e5, e6⟩ := idx_facts t
  funext j
  show pooled (B := 1) (xblk m c t) j = pooled (B := 64) (xarr m c) (((cfg0.win 1).blk t).view.emb j)
  refine pooled_image (xarr m c) (xblk m c t) t.val (xblk_rd m c t) j _ ?_ ?_ ?_
  · have hj : (j 0).val < 1 := (j 0).isLt
    show win0_1.index t (0 : Fin 3) * 1 + 1 * (j 0).val = t.val; omega
  · show win0_1.index t (1 : Fin 3) * 14 + 1 * (j 1).val = (j 1).val; omega
  · show win0_1.index t (2 : Fin 3) * 512 + 1 * (j 2).val = (j 2).val; omega

/-- An index of the result array is in point `t`'s block iff each coordinate is in the block's range on its axis. -/
theorem mem_blk (t : Fin cfg0.N) (i : S64x14x512.Idx) :
    i ∈ ((cfg0.win 1).blk t).view.set ↔ ∀ a : Fin 3, win0_1.index t a * S1x14x512.size a ≤ (i a).val
      ∧ (i a).val < win0_1.index t a * S1x14x512.size a + S1x14x512.size a := by
  show i ∈ ((View.whole main_v0).slice (win0_1.rect t)).set ↔ _
  rw [View.set_slice_whole, Rect.mem_set_unit]
  exact Iff.rfl

/-- Every index of the result array is in the block of the point its batch coordinate names. -/
theorem cover (i : S64x14x512.Idx) :
    ∃ t : Fin cfg0.N, (cfg0.win 1).flush t = true ∧ i ∈ ((cfg0.win 1).blk t).view.set := by
  have hi0 : (i 0).val < 64 := (i 0).isLt
  have hi1 : (i 1).val < 14 := (i 1).isLt
  have hi2 : (i 2).val < 512 := (i 2).isLt
  obtain ⟨-, -, -, -, e4, e5, e6⟩ := idx_facts (⟨(i 0).val, hi0⟩ : Fin cfg0.N)
  have e4' : win0_1.index (⟨(i 0).val, hi0⟩ : Fin cfg0.N) (0 : Fin 3) = (i 0).val := e4
  refine ⟨⟨(i 0).val, hi0⟩, flush0_1 _, ?_⟩
  rw [mem_blk]
  intro a
  match a with
  | ⟨0, _⟩ =>
    show win0_1.index (⟨(i 0).val, hi0⟩ : Fin cfg0.N) (0 : Fin 3) * 1 ≤ (i 0).val
      ∧ (i 0).val < win0_1.index (⟨(i 0).val, hi0⟩ : Fin cfg0.N) (0 : Fin 3) * 1 + 1
    omega
  | ⟨1, _⟩ =>
    show win0_1.index (⟨(i 0).val, hi0⟩ : Fin cfg0.N) (1 : Fin 3) * 14 ≤ (i 1).val
      ∧ (i 1).val < win0_1.index (⟨(i 0).val, hi0⟩ : Fin cfg0.N) (1 : Fin 3) * 14 + 14
    omega
  | ⟨2, _⟩ =>
    show win0_1.index (⟨(i 0).val, hi0⟩ : Fin cfg0.N) (2 : Fin 3) * 512 ≤ (i 2).val
      ∧ (i 2).val < win0_1.index (⟨(i 0).val, hi0⟩ : Fin cfg0.N) (2 : Fin 3) * 512 + 512
    omega

/-- The result array after the run is the pooled array of the argument. -/
theorem final (c : Dev nD) : (dats m 0 c).arrAt 1 cfg0.N = pooled (B := 64) (xarr m c) :=
  (dats m 0 c).arrAt_eq_of_cover 1 (pooled (B := 64) (xarr m c)) (fun t _ => flushed_eq m c t) cover

/-! ## The run -/

/-- Every weakly fair execution of the idealized kernel ends with its result at the pooled array of its argument,
    the argument unchanged. -/
theorem run : θ_run defs (onTc (τ := τ) (main (F := Ideal))) ⟨m, fun _ => 0, ρ⟩ fun r => ∀ c : Dev nD,
      r.2.mem ((c : Thread nD τ).loc main_v0)
          = pooled (B := 64) (m ((c : Thread nD τ).loc main_arg0) : Vec Ideal S64x37x37x512 .f32)
      ∧ r.2.mem ((c : Thread nD τ).loc main_arg0) = m ((c : Thread nD τ).loc main_arg0) :=
  (θ_run defs _ _).mono (fun r h c => ⟨(h c).1.trans ((final m c).trans (by rw [xarr_eq])), (h c).2⟩)
    (Value.run_blocks m ρ)

end Cert.KernelIdeal.Pool

end
-- ==== Proof.RefPooled.lean ====
/-
  The idealized reference's result is the pooled array of its argument.

  The reference takes each window's maximum in one reduction over both spatial axes of a slice of the map (the whole
  map for the first window), keeps the reduced axes as one unit axis, and joins the fourteen `64 × 1 × 512` results
  along that axis.  Read at `(b, r, c)`: the join picks piece `r` at `(b, 0, c)`, the kept axis forgets the `0`, and the
  reduction at `(b, c)` is the supremum over all (row, column) pairs of window `r` — the same supremum the pooled array
  takes columns-outside, rows-inside.
-/
import proofs.«134663_j41721312314087_1_alg».proof.Proof.RefRun
import proofs.«134663_j41721312314087_1_alg».proof.Proof.WindowMax

noncomputable section

namespace Cert.ReferenceIdeal.Pool

open Cert.ReferenceIdeal Cert.ReferenceIdeal.Gen Idealize.ShloMosaic Idealize.ShloMosaic.TcCoe Idealize.SL.Sem
open Idealize.ShloMosaic.ValueIdx Cert.Rmac

/-! ## The three layout and reduction steps, read at an index -/

/-- A join of fourteen `64 × 1 × 512` pieces along the middle axis, read at `j`: piece `j 1` at `(j 0, 0, j 2)`. -/
theorem concat14_apply {α : Type} (p0 p1 p2 p3 p4 p5 p6 p7 p8 p9 p10 p11 p12 p13 : (⟨3, ![64, 1, 512]⟩ : Shape).Idx → α)
    (h : Shape.Concatenates (([⟨⟨3, ![64, 1, 512]⟩, p0⟩, ⟨⟨3, ![64, 1, 512]⟩, p1⟩, ⟨⟨3, ![64, 1, 512]⟩, p2⟩, ⟨⟨3, ![64, 1, 512]⟩, p3⟩, ⟨⟨3, ![64, 1, 512]⟩, p4⟩, ⟨⟨3, ![64, 1, 512]⟩, p5⟩, ⟨⟨3, ![64, 1, 512]⟩, p6⟩, ⟨⟨3, ![64, 1, 512]⟩, p7⟩, ⟨⟨3, ![64, 1, 512]⟩, p8⟩, ⟨⟨3, ![64, 1, 512]⟩, p9⟩, ⟨⟨3, ![64, 1, 512]⟩, p10⟩, ⟨⟨3, ![64, 1, 512]⟩, p11⟩, ⟨⟨3, ![64, 1, 512]⟩, p12⟩, ⟨⟨3, ![64, 1, 512]⟩, p13⟩] :
      List ((s : Shape) × (s.Idx → α))).map (·.1)) ⟨3, ![64, 14, 512]⟩ 1)
    (j : (⟨3, ![64, 14, 512]⟩ : Shape).Idx) :
    concatenate ⟨3, ![64, 14, 512]⟩ 1 [⟨⟨3, ![64, 1, 512]⟩, p0⟩, ⟨⟨3, ![64, 1, 512]⟩, p1⟩, ⟨⟨3, ![64, 1, 512]⟩, p2⟩, ⟨⟨3, ![64, 1, 512]⟩, p3⟩, ⟨⟨3, ![64, 1, 512]⟩, p4⟩, ⟨⟨3, ![64, 1, 512]⟩, p5⟩, ⟨⟨3, ![64, 1, 512]⟩, p6⟩, ⟨⟨3, ![64, 1, 512]⟩, p7⟩, ⟨⟨3, ![64, 1, 512]⟩, p8⟩, ⟨⟨3, ![64, 1, 512]⟩, p9⟩, ⟨⟨3, ![64, 1, 512]⟩, p10⟩, ⟨⟨3, ![64, 1, 512]⟩, p11⟩, ⟨⟨3, ![64, 1, 512]⟩, p12⟩, ⟨⟨3, ![64, 1, 512]⟩, p13⟩] h j
      = (![p0, p1, p2, p3, p4, p5, p6, p7, p8, p9, p10, p11, p12, p13] : Fin 14 → ((⟨3, ![64, 1, 512]⟩ : Shape).Idx → α)) (j 1) (ix3 (j 0) (0 : Fin 1) (j 2)) :=
  concatenate_ofFn_unit_apply (t := ⟨3, ![64, 14, 512]⟩) (s₁ := ⟨3, ![64, 1, 512]⟩) 1
    (![p0, p1, p2, p3, p4, p5, p6, p7, p8, p9, p10, p11, p12, p13] : Fin 14 → ((⟨3, ![64, 1, 512]⟩ : Shape).Idx → α)) h rfl rfl j (j 1) rfl
    (ix3 (j 0) (0 : Fin 1) (j 2))
    (fun b hb => match b, hb with
      | ⟨0, _⟩, _ => rfl
      | ⟨1, _⟩, hb => absurd rfl hb
      | ⟨2, _⟩, _ => rfl)

/-- A `64 × 512` array given a unit middle axis, read at `i`: the array at `(i 0, i 2)`. -/
theorem keep_apply (Y : (⟨2, ![64, 512]⟩ : Shape).Idx → EReal)
    (h : (⟨2, ![64, 512]⟩ : Shape).BroadcastsInDim ⟨3, ![64, 1, 512]⟩ (![0, 2] : Fin 2 → Fin 3))
    (i : (⟨3, ![64, 1, 512]⟩ : Shape).Idx) :
    broadcastInDim ⟨3, ![64, 1, 512]⟩ (![0, 2] : Fin 2 → Fin 3) h Y i = Y (ix2 (i 0) (i 2)) :=
  broadcastInDim_apply _ h Y i (ix2 (i 0) (i 2)) (fun a => match a with
    | ⟨0, _⟩ => by show (i 0).val = if (64 : Nat) = 1 then 0 else (i 0).val; rw [if_neg (by decide)]
    | ⟨1, _⟩ => by show (i 2).val = if (512 : Nat) = 1 then 0 else (i 2).val; rw [if_neg (by decide)])

variable {n : Nat}

/-- A window cut out by a slice at `(0, oy, ox, 0)` and maximised over both spatial axes, at `(b, c)`. -/
theorem sliceMax {oy ox : Nat} (X : (⟨4, ![64, 37, 37, 512]⟩ : Shape).Idx → EReal)
    (hs : (⟨4, ![64, 37, 37, 512]⟩ : Shape).Slices ![0, oy, ox, 0] ⟨4, ![64, n, n, 512]⟩)
    (hr : (⟨4, ![64, n, n, 512]⟩ : Shape).ReducesTo [1, 2] ⟨2, ![64, 512]⟩)
    (init : (⟨0, ![]⟩ : Shape).Idx → EReal) (hinit : ∀ z, init z = FloatOps.ofBits (F := Ideal) .f32 0xFF800000#32)
    (hu : 0 < (⟨0, ![]⟩ : Shape).numel) (q : (⟨2, ![64, 512]⟩ : Shape).Idx) :
    Host.reduce (FloatOps.maximumf (F := Ideal) (φ := .f32))
        (extractStridedSlice ⟨4, ![64, n, n, 512]⟩ ![0, oy, ox, 0] X hs) init hr hu q
      = crop X n oy ox (q 0).val (q 1).val := by
  have by1 : oy + n ≤ 37 := hs.2 1
  have by2 : ox + n ≤ 37 := hs.2 2
  rw [pairsMax _ hr init hinit hu q, crop_eq_sup_pairs]
  refine Finset.sup_congr rfl fun p hp => ?_
  obtain ⟨h1, h2⟩ := Finset.mem_product.1 hp
  have h1' : p.1 < n := Finset.mem_range.1 h1
  have h2' : p.2 < n := Finset.mem_range.1 h2
  refine (rd4_of_val (a := (q 0).val) (b := p.1) (c := p.2) (d := (q 1).val) _
    (ix4 (n0 := 64) (n1 := n) (n2 := n) (n3 := 512) (q 0) ⟨p.1, h1'⟩ ⟨p.2, h2'⟩ (q 1)) rfl rfl rfl rfl).symm.trans ?_
  refine (extractStridedSlice_apply ![0, oy, ox, 0] X hs
    (ix4 (n0 := 64) (n1 := n) (n2 := n) (n3 := 512) (q 0) ⟨p.1, h1'⟩ ⟨p.2, h2'⟩ (q 1))
    (ix4 (n0 := 64) (n1 := 37) (n2 := 37) (n3 := 512) (q 0) ⟨oy + p.1, by omega⟩ ⟨ox + p.2, by omega⟩ (q 1))
    (fun a => match a with
      | ⟨0, _⟩ => by show (q 0).val = 0 + (q 0).val; omega
      | ⟨1, _⟩ => by show oy + p.1 = oy + p.1; rfl
      | ⟨2, _⟩ => by show ox + p.2 = ox + p.2; rfl
      | ⟨3, _⟩ => by show (q 1).val = 0 + (q 1).val; omega)).trans ?_
  exact rd4_of_val X _ rfl rfl rfl rfl

/-- The whole map maximised over both spatial axes: the first window. -/
theorem wholeMax (X : (⟨4, ![64, 37, 37, 512]⟩ : Shape).Idx → EReal)
    (hr : (⟨4, ![64, 37, 37, 512]⟩ : Shape).ReducesTo [1, 2] ⟨2, ![64, 512]⟩)
    (init : (⟨0, ![]⟩ : Shape).Idx → EReal) (hinit : ∀ z, init z = FloatOps.ofBits (F := Ideal) .f32 0xFF800000#32)
    (hu : 0 < (⟨0, ![]⟩ : Shape).numel) (q : (⟨2, ![64, 512]⟩ : Shape).Idx) :
    Host.reduce (FloatOps.maximumf (F := Ideal) (φ := .f32)) X init hr hu q = crop X 37 0 0 (q 0).val (q 1).val := by
  rw [pairsMax (n := 37) X hr init hinit hu q, crop_eq_sup_pairs]
  refine Finset.sup_congr rfl fun p _ => ?_
  rw [Nat.zero_add, Nat.zero_add]

/-! ## One row of the join -/

/-- Row `k` when its window is cut out by a slice: the piece at `(b, 0, c)` is the pooled array at `(b, k, c)`. -/
theorem rowSlice {oy ox : Nat} (k : Fin 14) (hk : region k.val = (n, oy, ox))
    (X : (⟨4, ![64, 37, 37, 512]⟩ : Shape).Idx → EReal)
    (hb : (⟨2, ![64, 512]⟩ : Shape).BroadcastsInDim ⟨3, ![64, 1, 512]⟩ (![0, 2] : Fin 2 → Fin 3))
    (hs : (⟨4, ![64, 37, 37, 512]⟩ : Shape).Slices ![0, oy, ox, 0] ⟨4, ![64, n, n, 512]⟩)
    (hr : (⟨4, ![64, n, n, 512]⟩ : Shape).ReducesTo [1, 2] ⟨2, ![64, 512]⟩)
    (hu : 0 < (⟨0, ![]⟩ : Shape).numel) (b : Fin 64) (ch : Fin 512) :
    broadcastInDim ⟨3, ![64, 1, 512]⟩ (![0, 2] : Fin 2 → Fin 3) hb
        (Host.reduce (FloatOps.maximumf (F := Ideal) (φ := .f32))
          (extractStridedSlice ⟨4, ![64, n, n, 512]⟩ ![0, oy, ox, 0] X hs)
          (constant (F := Ideal) ⟨0, ![]⟩ .f32 0xFF800000#32) hr hu)
        (ix3 b (0 : Fin 1) ch)
      = pooled (B := 64) X (ix3 b k ch) := by
  refine (keep_apply _ hb _).trans ((sliceMax X hs hr _ (fun _ => rfl) hu _).trans ?_)
  unfold pooled
  show crop X n oy ox b.val ch.val = crop X (region k.val).1 (region k.val).2.1 (region k.val).2.2 b.val ch.val
  rw [hk]

/-- Row 0, the whole map. -/
theorem rowWhole (X : (⟨4, ![64, 37, 37, 512]⟩ : Shape).Idx → EReal)
    (hb : (⟨2, ![64, 512]⟩ : Shape).BroadcastsInDim ⟨3, ![64, 1, 512]⟩ (![0, 2] : Fin 2 → Fin 3))
    (hr : (⟨4, ![64, 37, 37, 512]⟩ : Shape).ReducesTo [1, 2] ⟨2, ![64, 512]⟩)
    (hu : 0 < (⟨0, ![]⟩ : Shape).numel) (b : Fin 64) (ch : Fin 512) :
    broadcastInDim ⟨3, ![64, 1, 512]⟩ (![0, 2] : Fin 2 → Fin 3) hb
        (Host.reduce (FloatOps.maximumf (F := Ideal) (φ := .f32)) X
          (constant (F := Ideal) ⟨0, ![]⟩ .f32 0xFF800000#32) hr hu)
        (ix3 b (0 : Fin 1) ch)
      = pooled (B := 64) X (ix3 b (0 : Fin 14) ch) := by
  refine (keep_apply _ hb _).trans ((wholeMax X hr _ (fun _ => rfl) hu _).trans ?_)
  unfold pooled
  rfl

/-! ## The join of fourteen rows -/

/-- Fourteen `64 × 1 × 512` pieces, piece `k` being row `k` of the pooled array, join to the pooled array. -/
theorem join_rows (X : (⟨4, ![64, 37, 37, 512]⟩ : Shape).Idx → EReal)
    (p0 p1 p2 p3 p4 p5 p6 p7 p8 p9 p10 p11 p12 p13 : (⟨3, ![64, 1, 512]⟩ : Shape).Idx → EReal)
    (h : Shape.Concatenates (([⟨⟨3, ![64, 1, 512]⟩, p0⟩, ⟨⟨3, ![64, 1, 512]⟩, p1⟩, ⟨⟨3, ![64, 1, 512]⟩, p2⟩, ⟨⟨3, ![64, 1, 512]⟩, p3⟩, ⟨⟨3, ![64, 1, 512]⟩, p4⟩, ⟨⟨3, ![64, 1, 512]⟩, p5⟩, ⟨⟨3, ![64, 1, 512]⟩, p6⟩, ⟨⟨3, ![64, 1, 512]⟩, p7⟩, ⟨⟨3, ![64, 1, 512]⟩, p8⟩, ⟨⟨3, ![64, 1, 512]⟩, p9⟩, ⟨⟨3, ![64, 1, 512]⟩, p10⟩, ⟨⟨3, ![64, 1, 512]⟩, p11⟩, ⟨⟨3, ![64, 1, 512]⟩, p12⟩, ⟨⟨3, ![64, 1, 512]⟩, p13⟩] :
      List ((s : Shape) × (s.Idx → EReal))).map (·.1)) ⟨3, ![64, 14, 512]⟩ 1)
    (h0 : ∀ (b : Fin 64) (ch : Fin 512), p0 (ix3 b (0 : Fin 1) ch) = pooled (B := 64) X (ix3 b (0 : Fin 14) ch))
    (h1 : ∀ (b : Fin 64) (ch : Fin 512), p1 (ix3 b (0 : Fin 1) ch) = pooled (B := 64) X (ix3 b (1 : Fin 14) ch))
    (h2 : ∀ (b : Fin 64) (ch : Fin 512), p2 (ix3 b (0 : Fin 1) ch) = pooled (B := 64) X (ix3 b (2 : Fin 14) ch))
    (h3 : ∀ (b : Fin 64) (ch : Fin 512), p3 (ix3 b (0 : Fin 1) ch) = pooled (B := 64) X (ix3 b (3 : Fin 14) ch))
    (h4 : ∀ (b : Fin 64) (ch : Fin 512), p4 (ix3 b (0 : Fin 1) ch) = pooled (B := 64) X (ix3 b (4 : Fin 14) ch))
    (h5 : ∀ (b : Fin 64) (ch : Fin 512), p5 (ix3 b (0 : Fin 1) ch) = pooled (B := 64) X (ix3 b (5 : Fin 14) ch))
    (h6 : ∀ (b : Fin 64) (ch : Fin 512), p6 (ix3 b (0 : Fin 1) ch) = pooled (B := 64) X (ix3 b (6 : Fin 14) ch))
    (h7 : ∀ (b : Fin 64) (ch : Fin 512), p7 (ix3 b (0 : Fin 1) ch) = pooled (B := 64) X (ix3 b (7 : Fin 14) ch))
    (h8 : ∀ (b : Fin 64) (ch : Fin 512), p8 (ix3 b (0 : Fin 1) ch) = pooled (B := 64) X (ix3 b (8 : Fin 14) ch))
    (h9 : ∀ (b : Fin 64) (ch : Fin 512), p9 (ix3 b (0 : Fin 1) ch) = pooled (B := 64) X (ix3 b (9 : Fin 14) ch))
    (h10 : ∀ (b : Fin 64) (ch : Fin 512), p10 (ix3 b (0 : Fin 1) ch) = pooled (B := 64) X (ix3 b (10 : Fin 14) ch))
    (h11 : ∀ (b : Fin 64) (ch : Fin 512), p11 (ix3 b (0 : Fin 1) ch) = pooled (B := 64) X (ix3 b (11 : Fin 14) ch))
    (h12 : ∀ (b : Fin 64) (ch : Fin 512), p12 (ix3 b (0 : Fin 1) ch) = pooled (B := 64) X (ix3 b (12 : Fin 14) ch))
    (h13 : ∀ (b : Fin 64) (ch : Fin 512), p13 (ix3 b (0 : Fin 1) ch) = pooled (B := 64) X (ix3 b (13 : Fin 14) ch))
    (j : (⟨3, ![64, 14, 512]⟩ : Shape).Idx) :
    concatenate ⟨3, ![64, 14, 512]⟩ 1 [⟨⟨3, ![64, 1, 512]⟩, p0⟩, ⟨⟨3, ![64, 1, 512]⟩, p1⟩, ⟨⟨3, ![64, 1, 512]⟩, p2⟩, ⟨⟨3, ![64, 1, 512]⟩, p3⟩, ⟨⟨3, ![64, 1, 512]⟩, p4⟩, ⟨⟨3, ![64, 1, 512]⟩, p5⟩, ⟨⟨3, ![64, 1, 512]⟩, p6⟩, ⟨⟨3, ![64, 1, 512]⟩, p7⟩, ⟨⟨3, ![64, 1, 512]⟩, p8⟩, ⟨⟨3, ![64, 1, 512]⟩, p9⟩, ⟨⟨3, ![64, 1, 512]⟩, p10⟩, ⟨⟨3, ![64, 1, 512]⟩, p11⟩, ⟨⟨3, ![64, 1, 512]⟩, p12⟩, ⟨⟨3, ![64, 1, 512]⟩, p13⟩] h j = pooled (B := 64) X j := by
  refine (concat14_apply p0 p1 p2 p3 p4 p5 p6 p7 p8 p9 p10 p11 p12 p13 h j).trans ?_
  obtain ⟨b, r, ch, rfl⟩ : ∃ (b : Fin 64) (r : Fin 14) (ch : Fin 512), j = ix3 b r ch := ⟨j 0, j 1, j 2, eq_ix3 j⟩
  fin_cases r
  · exact h0 b ch
  · exact h1 b ch
  · exact h2 b ch
  · exact h3 b ch
  · exact h4 b ch
  · exact h5 b ch
  · exact h6 b ch
  · exact h7 b ch
  · exact h8 b ch
  · exact h9 b ch
  · exact h10 b ch
  · exact h11 b ch
  · exact h12 b ch
  · exact h13 b ch

/-! ## The run's term -/

/-- The term the reference's run ends at is the pooled array of the argument: its fourteen pieces are the fourteen rows. -/
theorem res_eq (m : (ℓ : Loc nD τ sig) → Buf (Elt Ideal) ℓ) (c : Dev nD) :
    RunP.res_main_v41 m c = pooled (B := 64) (m ((c.tc : Thread nD τ).loc main_arg0) : Vec Ideal S64x37x37x512 .f32) := by
  funext j
  unfold RunP.res_main_v41
  exact join_rows (m ((c.tc : Thread nD τ).loc main_arg0) : Vec Ideal S64x37x37x512 .f32) _ _ _ _ _ _ _ _ _ _ _ _ _ _ _
    (rowWhole _ _ _ _)
    (rowSlice 1 rfl _ _ _ _ _) (rowSlice 2 rfl _ _ _ _ _) (rowSlice 3 rfl _ _ _ _ _) (rowSlice 4 rfl _ _ _ _ _)
    (rowSlice 5 rfl _ _ _ _ _) (rowSlice 6 rfl _ _ _ _ _) (rowSlice 7 rfl _ _ _ _ _)
    (rowSlice 8 rfl _ _ _ _ _) (rowSlice 9 rfl _ _ _ _ _) (rowSlice 10 rfl _ _ _ _ _)
    (rowSlice 11 rfl _ _ _ _ _) (rowSlice 12 rfl _ _ _ _ _) (rowSlice 13 rfl _ _ _ _ _) j

end Cert.ReferenceIdeal.Pool

end
-- ==== Proof.lean ====
/-
  Regional maximum pooling of a `64 × 37 × 37 × 512` feature map over a three-level pyramid of fourteen square
  windows: the kernel against its reference, at the ideal values.

  Both programs produce `P[b, r, c] = max over (h, w) in window r of X[b, oy_r + h, ox_r + w, c]`, every maximum
  started from −∞.  The kernel handles one image per grid point and takes each window's maximum over rows and then
  over columns; the reference takes it over both axes of a slice at once and joins the fourteen results.  On the
  extended reals a maximum from −∞ is a supremum of a finite family, independent of how the family is enumerated, so
  both results are the one pooled array of the argument (`Cert.Rmac.pooled`); no finiteness of the entries is used.
  The three frames are the programs' runs with the results dropped; nothing was rewritten between the kernel and its
  idealization, so that claim is empty.
-/
import proofs.«134663_j41721312314087_1_alg».proof.Defs
import proofs.«134663_j41721312314087_1_alg».proof.Proof.Gen.Kernel
import proofs.«134663_j41721312314087_1_alg».proof.Proof.Gen.Kernel.Skeleton
import proofs.«134663_j41721312314087_1_alg».proof.Proof.Gen.Kernel.Launch
import proofs.«134663_j41721312314087_1_alg».proof.Proof.Gen.Kernel.Points
import proofs.«134663_j41721312314087_1_alg».proof.Proof.Gen.Kernel.Frame
import proofs.«134663_j41721312314087_1_alg».proof.Proof.Gen.KernelIdeal
import proofs.«134663_j41721312314087_1_alg».proof.Proof.Gen.KernelIdeal.Skeleton
import proofs.«134663_j41721312314087_1_alg».proof.Proof.Gen.KernelIdeal.Launch
import proofs.«134663_j41721312314087_1_alg».proof.Proof.Gen.KernelIdeal.Points
import proofs.«134663_j41721312314087_1_alg».proof.Proof.Gen.KernelIdeal.Frame
import proofs.«134663_j41721312314087_1_alg».proof.Proof.Gen.ReferenceIdeal
import proofs.«134663_j41721312314087_1_alg».proof.Proof.Gen.Pre_finite_inputs
import proofs.«134663_j41721312314087_1_alg».proof.Proof.Gen.KernelIdeal.Value
import proofs.«134663_j41721312314087_1_alg».proof.Proof.KernelPooled
import proofs.«134663_j41721312314087_1_alg».proof.Proof.RefPooled
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- From memories that agree on the argument both idealized programs end at the pooled array of that argument. -/
theorem algebraic : Cert.algebraic_KernelIdeal_ReferenceIdeal := by
  intro m ρ m' ρ' _ hagree
  refine ⟨_, Cert.KernelIdeal.Pool.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.Pool.res_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
